-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1x1x2048x2048 : Shape := ⟨4, ![1, 1, 2048, 2048]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1x2048x2048 : S_.BroadcastsInDim S1x1x2048x2048 (![] : Fin 0 → Fin S1x1x2048x2048.rank)
  reducesTo_S1x1x2048x2048_S_d0_1_2_3 : S1x1x2048x2048.ReducesTo [0, 1, 2, 3] S_

variable [Facts]

def fn_part1 {F : FTy → Type} [FloatOps F] (main_v13 : IVec S_ 1) (main_v16 : IVec S1x1x2048x2048 1) : IVec S_ 1 :=
  let main_c_5 : IVec S_ 1 := constantI S_ 1 1#1
  let main_v17 : IVec S_ 1 := (fun x v => Host.reduce IntOp.andi x v reducesTo_S1x1x2048x2048_S_d0_1_2_3 h_S_) main_v16 main_c_5
  let main_v18 : IVec S_ 1 := andi main_v13 main_v17
  main_v18

def fn {F : FTy → Type} [FloatOps F] (main_arg0 : FVec F S2x2048x1024 .f32) (main_arg1 : FVec F S2x2048x1024 .f32) (main_arg2 : FVec F S2x2048x1024 .f32) (main_arg3 : FVec F S1x1x2048x2048 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1x1x2048x2048 .f32 := Host.absf main_arg3
  let main_cst_4 : FVec F S_ .f32 := constant S_ .f32 0x7F800000#32
  let main_v15 : FVec F S1x1x2048x2048 .f32 := broadcastInDim S1x1x2048x2048 ![] bcast_S_S1x1x2048x2048 main_cst_4
  let main_v16 : IVec S1x1x2048x2048 1 := cmpf .olt main_v14 main_v15
  fn_part1 (F := F) main_v13 main_v16
-- ==== Kernel.lean ====
abbrev S2x2048x1024 : Shape := ⟨3, ![2, 2048, 1024]⟩
abbrev S1x1x2048x2048 : Shape := ⟨4, ![1, 1, 2048, 2048]⟩
abbrev S2x2048x16x64 : Shape := ⟨4, ![2, 2048, 16, 64]⟩
abbrev S2x16x2048x64 : Shape := ⟨4, ![2, 16, 2048, 64]⟩
abbrev S2048x2048 : Shape := ⟨2, ![2048, 2048]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 15
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1x1x2048x2048, .f32⟩
  | .hbm, ⟨4, _⟩ => ⟨S2x2048x16x64, .f32⟩
  | .hbm, ⟨5, _⟩ => ⟨S2x16x2048x64, .f32⟩
  | .hbm, ⟨6, _⟩ => ⟨S2x2048x16x64, .f32⟩
  | .hbm, ⟨7, _⟩ => ⟨S2x16x2048x64, .f32⟩
  | .hbm, ⟨8, _⟩ => ⟨S2x2048x16x64, .f32⟩
  | .hbm, ⟨9, _⟩ => ⟨S2x16x2048x64, .f32⟩
  | .hbm, ⟨10, _⟩ => ⟨S2048x2048, .f32⟩
  | .hbm, ⟨11, _⟩ => ⟨S2048x2048, .bf16⟩
  | .hbm, ⟨12, _⟩ => ⟨S2x16x2048x64, .f32⟩
  | .hbm, ⟨13, _⟩ => ⟨S2x16x2048x2048, .f32⟩
  | .hbm, ⟨14, _⟩ => ⟨S2x2048x1024, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S2048x2048, .bf16⟩
  | .local _ .vmem, ⟨7, _⟩ => ⟨S1x1x512x64, .f32⟩
  | .local _ .vmem, ⟨8, _⟩ => ⟨S1x1x512x64, .f32⟩
  | .local _ .vmem, ⟨9, _⟩ => ⟨S1x1x512x2048, .f32⟩
  | .local _ .vmem, ⟨10, _⟩ => ⟨S1x1x512x2048, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 16, 4], ![false, false, false]⟩

def k0_mult1 (i : grid0.Coords) : BitVec 32 :=
  let arg2 : BitVec 32 := BitVec.ofNat 32 (i 2).val
  let c512_i32 : BitVec 32 := 512#32
  let v0 : BitVec 32 := Scalar.muli arg2 c512_i32
  v0
def k0_off1 (i : grid0.Coords) : Fin 2 → Nat :=
  let arg2 : BitVec 32 := BitVec.ofNat 32 (i 2).val
  let c512_i32 : BitVec 32 := 512#32
  let v0 : BitVec 32 := Scalar.muli arg2 c512_i32
  let v1 : BitVec 32 := v0
  let v14 : Index := Scalar.indexCast v1
  let c0_12 : Index := 0#32
  ![v14.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  shapeCasts_S1x1x2048x2048_S2048x2048 : S1x1x2048x2048.ShapeCasts S2048x2048
  bitsLt_bf16_f32 : FTy.bits .bf16 < FTy.bits .f32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  shapeCasts_S2x16x2048x64_S2x2048x1024 : S2x16x2048x64.ShapeCasts S2x2048x1024
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x2048.size a ≤ S2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x16x2048x64.size a
  hwx0_4 : ∀ i : grid0.Coords, EltTy.bits .f32 = 32 ∨ (Rect.block (s := S2x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S2x16x2048x2048.size a
  hwx0_5 : ∀ i : grid0.Coords, EltTy.bits .f32 = 32 ∨ (Rect.block (s := S2x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v1) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x2048x1024 : Shape := ⟨3, ![2, 2048, 1024]⟩
abbrev S1x1x2048x2048 : Shape := ⟨4, ![1, 1, 2048, 2048]⟩
abbrev S2x2048x16x64 : Shape := ⟨4, ![2, 2048, 16, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1x1x2048x2048, .f32⟩
  | .hbm, ⟨4, _⟩ => ⟨S2x2048x16x64, .f32⟩
  | .hbm, ⟨5, _⟩ => ⟨S2x16x2048x64, .f32⟩
  | .hbm, ⟨6, _⟩ => ⟨S2x2048x16x64, .f32⟩
  | .hbm, ⟨7, _⟩ => ⟨S2x16x2048x64, .f32⟩
  | .hbm, ⟨8, _⟩ => ⟨S2x2048x16x64, .f32⟩
  | .hbm, ⟨9, _⟩ => ⟨S2x16x2048x64, .f32⟩
  | .hbm, ⟨10, _⟩ => ⟨S_, .f32⟩
  | .hbm, ⟨11, _⟩ => ⟨S_, .f32⟩
  | .hbm, ⟨12, _⟩ => ⟨S2x16x2048x2048, .f32⟩
  | .hbm, ⟨13, _⟩ => ⟨S2x16x2048x2048, .f32⟩
  | .hbm, ⟨14, _⟩ => ⟨S2x16x2048x2048, .f32⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048x2048, .f32⟩
  | .hbm, ⟨19, _⟩ => ⟨S2x16x2048x2048, .i1⟩
  | .hbm, ⟨20, _⟩ => ⟨S_, .f32⟩
  | .hbm, ⟨21, _⟩ => ⟨S2x16x2048x2048, .f32⟩
  | .hbm, ⟨22, _⟩ => ⟨S2x16x2048x2048, .f32⟩
  | .hbm, ⟨23, _⟩ => ⟨S_, .f32⟩
  | .hbm, ⟨24, _⟩ => ⟨S2x16x2048, .f32⟩
  | .hbm, ⟨25, _⟩ => ⟨S_, .f32⟩
  | .hbm, ⟨26, _⟩ => ⟨S2x16x2048, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S_, .f32⟩
  | .hbm, ⟨33, _⟩ => ⟨S2x16x2048, .f32⟩
  | .hbm, ⟨34, _⟩ => ⟨S2x16x2048x1, .f32⟩
  | .hbm, ⟨35, _⟩ => ⟨S2x16x2048x2048, .f32⟩
  | .hbm, ⟨36, _⟩ => ⟨S2x16x2048x2048, .f32⟩
  | .hbm, ⟨37, _⟩ => ⟨S2x16x2048x64, .f32⟩
  | .hbm, ⟨38, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_call0_v0 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  shapeCasts_S2x16x2048x64_S2x2048x1024 : S2x16x2048x64.ShapeCasts S2x2048x1024
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Softmax.lean ====
/-
  The mathematics both programs share, over plain functions of coordinates (no program, no shape).

  A head's attention row.  For query row q of head (b, h) the raw score against key row k is the dot product over the
  64 head channels, scaled by 1/8 = 1/sqrt 64, multiplied by the mask entry (q, k); an exact zero is then replaced by
  the fill value -10^9.  The row of thresholded scores s is turned into probabilities by the shifted softmax
  exp (s k - max s) / sum_k' exp (s k' - max s), and the context row is the probabilities' combination of the value rows.

  Two spellings of the normalisation meet here.  One multiplies each exponential by the reciprocal 1 / D of the row's
  denominator D; the other divides each exponential by D (and takes the row maximum once more against -inf, adds the
  sum to a zero).  On the extended reals the quotient by 0 is not the product with 1 / 0 (0 / 0 is -inf while
  0 * (1 / 0) = 0 * +inf = 0), so the two agree only where D is not zero.  For a row of REAL scores the maximum is
  attained at some k0 and is real, so the k0 term of D is exp 0 = 1 and every other term is nonnegative: D >= 1 > 0
  (den_ne_zero), and then both spellings are exp (...) * D⁻¹ (div_eq_mul_one_div).
-/
import Idealize.ShloMosaic.PureOps.Ideal
import Idealize.ShloMosaic.PureOps.Ideal.Laws

noncomputable section

namespace Cert.Softmax

open Idealize.ShloMosaic

/-! ## The literal words the two programs spell -/

theorem ofBits_zero : Ideal.ofBits .f32 0x00000000#32 = 0 := Ideal.ofBits_zero_f32

/-- 64.0, the head dimension whose square root divides the scores. -/
theorem ofBits_64 : Ideal.ofBits .f32 0x42800000#32 = ((64 : ℝ) : EReal) := by
  simp [Ideal.ofBits, Ideal.ieee, -EReal.coe_mul]; norm_num

/-- 0.125 = 1 / sqrt 64, the scale the scores are multiplied by. -/
theorem ofBits_eighth : Ideal.ofBits .f32 0x3E000000#32 = ((1 / 8 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

/-- The all-ones exponent with the sign set: -inf, the neutral element of a maximum. -/
theorem ofBits_neg_inf : Ideal.ofBits .f32 0xFF800000#32 = ⊥ := by
  simp [Ideal.ofBits, Ideal.ieee]

/-- -1.0e9, the value an exactly-zero masked score is replaced by: -(2^23 + 7236392) * 2^6. -/
theorem ofBits_fill : Ideal.ofBits .f32 0xCE6E6B28#32 = ((-1000000000 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-! ## Extended reals that are real numbers -/

/-- An extended real that is a real number. -/
def IsFin (x : EReal) : Prop := ∃ r : ℝ, x = (r : EReal)

theorem IsFin.coe (r : ℝ) : IsFin (r : EReal) := ⟨r, rfl⟩

theorem IsFin.add {x y : EReal} (hx : IsFin x) (hy : IsFin y) : IsFin (x + y) := by
  obtain ⟨a, rfl⟩ := hx; obtain ⟨b, rfl⟩ := hy; exact ⟨a + b, (EReal.coe_add a b).symm⟩

theorem IsFin.mul {x y : EReal} (hx : IsFin x) (hy : IsFin y) : IsFin (x * y) := by
  obtain ⟨a, rfl⟩ := hx; obtain ⟨b, rfl⟩ := hy; exact ⟨a * b, (EReal.coe_mul a b).symm⟩

theorem IsFin.sum {ι : Type} (s : Finset ι) (f : ι → EReal) (h : ∀ i ∈ s, IsFin (f i)) : IsFin (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem IsFin.sub_self {x : EReal} (h : IsFin x) : x - x = 0 := by
  obtain ⟨a, rfl⟩ := h
  rw [← EReal.coe_sub, _root_.sub_self, EReal.coe_zero]

/-! ## The threshold -/

/-- The fill value, -10^9. -/
def fill : EReal := ((-1000000000 : ℝ) : EReal)

/-- An exactly-zero score is replaced by the fill value; any other score is kept. -/
def thr (x : EReal) : EReal := if x = 0 then fill else x

theorem IsFin.thr {x : EReal} (h : IsFin x) : IsFin (thr x) := by
  unfold Softmax.thr; split
  · exact ⟨_, rfl⟩
  · exact h

/-- The compare-with-zero and select the programs print, at one element, is the threshold. -/
theorem select_cmp_eq_thr (x : EReal) :
    Scalar.select (Ideal.cmp .oeq x (Ideal.ofBits .f32 0x00000000#32)) (Ideal.ofBits .f32 0xCE6E6B28#32) x = thr x := by
  rw [ofBits_zero, ofBits_fill]
  unfold Scalar.select Ideal.cmp thr fill
  by_cases h : x = 0
  · simp [h]
  · simp [h]

/-! ## A row's softmax -/

section Row

variable {ι : Type} [Fintype ι]

/-- The row maximum, folded from -inf. -/
def rowMax (s : ι → EReal) : EReal := (Finset.univ : Finset ι).fold max ⊥ s

/-- The shifted exponentials. -/
def rowExp (s : ι → EReal) (k : ι) : EReal := Ideal.exp (s k - rowMax s)

/-- The row's denominator. -/
def rowDen (s : ι → EReal) : EReal := ∑ k, rowExp s k

/-- The probability at k: the exponential times the reciprocal of the denominator. -/
def prob (s : ι → EReal) (k : ι) : EReal := rowExp s k * Ideal.div 1 (rowDen s)

theorem le_rowMax (s : ι → EReal) (k : ι) : s k ≤ rowMax s :=
  ((Finset.fold_max_le (s := Finset.univ) (b := (⊥ : EReal)) (f := s) (c := rowMax s)).mp le_rfl).2 k (Finset.mem_univ k)

/-- A nonempty row of real scores attains its maximum. -/
theorem exists_eq_rowMax [Nonempty ι] (s : ι → EReal) (hs : ∀ k, IsFin (s k)) : ∃ k0, s k0 = rowMax s := by
  rcases (Finset.le_fold_max (s := Finset.univ) (b := (⊥ : EReal)) (f := s) (c := rowMax s)).mp le_rfl with h | ⟨k, _, hk⟩
  · obtain ⟨k⟩ := ‹Nonempty ι›
    have hk : s k ≤ ⊥ := (le_rowMax s k).trans h
    obtain ⟨r, hr⟩ := hs k
    rw [hr] at hk
    exact absurd (le_bot_iff.mp hk) (EReal.coe_ne_bot r)
  · exact ⟨k, le_antisymm (le_rowMax s k) hk⟩

theorem exp_nonneg (x : EReal) : 0 ≤ Ideal.exp x := by
  induction x using EReal.rec with
  | bot => rw [Ideal.exp_bot]
  | top => rw [Ideal.exp_top]; exact le_top
  | coe r => rw [Ideal.exp_coe]; exact EReal.coe_nonneg.mpr (Real.exp_pos r).le

theorem exp_zero : Ideal.exp 0 = 1 := by
  rw [← EReal.coe_zero, Ideal.exp_coe, Real.exp_zero, EReal.coe_one]

/-- The denominator of a nonempty row of real scores is at least 1, so it is not zero. -/
theorem den_ne_zero [Nonempty ι] (s : ι → EReal) (hs : ∀ k, IsFin (s k)) : rowDen s ≠ 0 := by
  obtain ⟨k0, hk0⟩ := exists_eq_rowMax s hs
  have h1 : rowExp s k0 = 1 := by
    unfold rowExp; rw [← hk0, (hs k0).sub_self, exp_zero]
  have hle : rowExp s k0 ≤ rowDen s :=
    Finset.single_le_sum (f := rowExp s) (fun k _ => exp_nonneg _) (Finset.mem_univ k0)
  rw [h1] at hle
  exact (lt_of_lt_of_le zero_lt_one hle).ne'

/-- Off a zero denominator the quotient is the product with the reciprocal. -/
theorem div_eq_mul_one_div (e d : EReal) (hd : d ≠ 0) : Ideal.div e d = e * Ideal.div 1 d := by
  unfold Ideal.div; rw [if_neg hd, if_neg hd, one_mul]

/-- The dividing spelling of the normalisation (the maximum taken once more against -inf, the sum added to a zero)
    is the probability, on a nonempty row of real scores. -/
theorem div_spelling_eq_prob [Nonempty ι] (s : ι → EReal) (hs : ∀ k, IsFin (s k)) (k : ι) :
    Ideal.div (Ideal.exp (s k - max ⊥ (rowMax s))) (0 + ∑ k', Ideal.exp (s k' - max ⊥ (rowMax s))) = prob s k := by
  rw [max_eq_right bot_le, zero_add]
  exact div_eq_mul_one_div _ _ (den_ne_zero s hs)

end Row

/-! ## The attention of one batch of heads, over functions of coordinates -/

section Attention

variable (qf kf vf : Fin 2 → Fin 16 → Fin 2048 → Fin 64 → EReal) (mf : Fin 2048 → Fin 2048 → EReal)

/-- The raw score: query row q against key row k of head (b, h), over the 64 channels. -/
def dotQK (b : Fin 2) (h : Fin 16) (q k : Fin 2048) : EReal := ∑ d : Fin 64, qf b h q d * kf b h k d

/-- The scaled, masked, thresholded score. -/
def score (b : Fin 2) (h : Fin 16) (q k : Fin 2048) : EReal :=
  thr (dotQK qf kf b h q k * ((1 / 8 : ℝ) : EReal) * mf q k)

/-- The alignment: row q's softmax over the keys. -/
def align (b : Fin 2) (h : Fin 16) (q k : Fin 2048) : EReal := prob (fun k' => score qf kf mf b h q k') k

/-- The context: the alignment row's combination of the value rows. -/
def ctx (b : Fin 2) (h : Fin 16) (q : Fin 2048) (d : Fin 64) : EReal :=
  ∑ k : Fin 2048, align qf kf mf b h q k * vf b h k d

variable {qf kf vf mf}

theorem score_isFin (hq : ∀ b h s d, IsFin (qf b h s d)) (hk : ∀ b h s d, IsFin (kf b h s d)) (hm : ∀ q k, IsFin (mf q k))
    (b : Fin 2) (h : Fin 16) (q k : Fin 2048) : IsFin (score qf kf mf b h q k) :=
  IsFin.thr (((IsFin.sum _ _ fun d _ => (hq b h q d).mul (hk b h k d)).mul (IsFin.coe _)).mul (hm q k))

/-- Dividing by the square root of 64 is multiplying by 1/8, on every extended real. -/
theorem div_sqrt_64 (x : EReal) : Ideal.div x (Ideal.sqrt (Ideal.ofBits .f32 0x42800000#32)) = x * ((1 / 8 : ℝ) : EReal) := by
  rw [ofBits_64, sqrt_64, Ideal.div_coe (by norm_num : (8 : ℝ) ≠ 0)]

end Attention

end Cert.Softmax

end
-- ==== Proof.LibUnitAxes.lean ====
/-
  Layout operations that only add, drop or repeat unit axes, read at an index written by coordinates, and a
  one-axis reduction's re-inserted coordinate.  General: any element type, any extents.
-/
import Idealize.ShloMosaic.Lib.Pipeline.Value
import Idealize.ShloMosaic.Lib.ValueIdx
import Idealize.ShloMosaic.PureOps.Reduce

noncomputable section

namespace Cert.Lib

open Idealize.ShloMosaic Idealize.ShloMosaic.ValueIdx

variable {α : Type}

/-- A [1, 1, a, b] array cast to [a, b] reads, at (i, j), the operand at (0, 0, i, j): the two leading unit axes
    carry no position in the row-major order. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array cast to [1, 1, a, b] reads, at (u, v, i, j), the operand at (i, j), whatever the unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]
    simp only [Nat.zero_mul, Nat.zero_add])

/-- An [a] vector cast to the column [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row statistic kept as a column and spread back over the row: at (p, c) it is the statistic of row p. -/
theorem column_spread_apply {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ x h1) h2 (ix2 p c) = x (ix1 p) := by
  rw [broadcastTo_a1_ab_apply, shapeCast_a_a1_apply]

/-- Reducing the second axis of [a, b]: row r's index with column k put back is (r, k). -/
theorem lift_row_col {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

end Cert.Lib

end
-- ==== Proof.Finite.lean ====
/-
  The finiteness precondition, read back.

  The predicate takes, for each of the four inputs, the absolute value |x| = max x (-x) of every element, compares it
  strictly against +infinity (the f32 word with all-ones exponent and zero fraction), folds the resulting bits of the
  whole array by "and" from the bit 1, and conjoins the four folded bits.  A conjunction of bits is 1 exactly when each
  bit is 1, and a fold by "and" from 1 is 1 exactly when every folded bit is 1.  So the predicate being 1 says that every
  element x of every input has max x (-x) < +infinity.  On the extended reals that excludes x = +infinity (then
  max x (-x) = +infinity) and x = -infinity (then -x = +infinity), and what remains is a real number.
-/
import proofs.«406578_j80496277061751_3_alg».proof.Pre_finite_inputs
import proofs.«406578_j80496277061751_3_alg».proof.Proof.Gen.Pre_finite_inputs
import proofs.«406578_j80496277061751_3_alg».proof.Proof.Softmax
import Idealize.ShloMosaic.Lib.ReduceAll

noncomputable section

namespace Cert.Finite

open Idealize.ShloMosaic Cert.Softmax Cert.Pre_finite_inputs

/-- The f32 word with sign clear, all-ones exponent and zero fraction is +infinity. -/
theorem ofBits_pos_inf : Ideal.ofBits .f32 0x7F800000#32 = ⊤ := by
  simp [Ideal.ofBits, Ideal.ieee]

/-- An extended real whose absolute value max x (-x) lies strictly below +infinity is a real number:
    at -infinity the negation is +infinity, at +infinity the number itself is. -/
theorem isFin_of_abs_lt_top (x : EReal) (h : max x (-x) < ⊤) : IsFin x := by
  induction x using EReal.rec with
  | bot => simp at h
  | coe r => exact ⟨r, rfl⟩
  | top => simp at h

/-- The bit made from a truth value is 1 exactly when the truth value is true. -/
theorem ofBool_eq_one {b : Bool} : BitVec.ofBool b = 1#1 ↔ b = true := by cases b <;> decide

/-- The rank-0 shape has a single index. -/
instance : Subsingleton S_.Idx := ⟨fun a b => funext fun d => d.elim0⟩

/-- One input's conjunct: if the fold by "and" over all axes of the bits (|a i| < +infinity) is 1,
    then every entry of a is a real number. -/
theorem all_isFin {s : Shape} {axes : List (Fin s.rank)} (a : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf a) (broadcastInDim s ![] hb (constant S_ .f32 0x7F800000#32)))
          (constantI S_ 1 1#1) hr hu j = 1#1) (i : s.Idx) : IsFin (a i) := by
  have h1 := Host.reduce_andi_all _ _ hr hu j e i
  have h2 : BitVec.ofBool (decide (max (a i) (-(a i)) < Ideal.ofBits .f32 0x7F800000#32)) = 1#1 := h1
  rw [ofBits_pos_inf] at h2
  exact isFin_of_abs_lt_top _ (of_decide_eq_true (ofBool_eq_one.1 h2))

theorem args_isFin [Cert.Pre_finite_inputs.Facts]
    (a0 a1 a2 : FVec Ideal S2x2048x1024 .f32) (a3 : FVec Ideal S1x1x2048x2048 .f32)
    (h : Cert.Pre_finite_inputs.fn (F := Ideal) a0 a1 a2 a3 = fun _ => 1#1) :
    (∀ i, IsFin (a0 i)) ∧ (∀ i, IsFin (a1 i)) ∧ (∀ i, IsFin (a2 i)) ∧ (∀ i, IsFin (a3 i)) := by
  have h0 := congrFun h (fun d => d.elim0 : S_.Idx)
  dsimp only [Cert.Pre_finite_inputs.fn, Cert.Pre_finite_inputs.fn_part1, andi] at h0
  obtain ⟨h012, e3⟩ := IntOp.andi_eq_one.1 h0
  obtain ⟨h01, e2⟩ := IntOp.andi_eq_one.1 h012
  obtain ⟨e0, e1⟩ := IntOp.andi_eq_one.1 h01
  exact ⟨all_isFin a0 _ _ _ _ e0, all_isFin a1 _ _ _ _ e1, all_isFin a2 _ _ _ _ e2, all_isFin a3 _ _ _ _ e3⟩

end Cert.Finite

end
-- ==== Proof.RefValue.lean ====
/-
  The reference's two results as the attention of Proof/Softmax.lean, read at coordinates.

  The reference splits the three [2, 2048, 1024] inputs into 16 heads of 64 channels ([2, 16, 2048, 64] arrays, taken here
  as they are: the other program builds the same arrays), contracts queries against keys over the channels, divides by
  sqrt 64, multiplies by the mask entry (q, k) whatever the batch and head, replaces exact zeros by -10^9, and
  normalises each row by the shifted softmax, spelled with a quotient by the row's denominator; the context contracts
  the probabilities against the values over the key axis.  Stage by stage, at coordinates (b, h, q, k):
    stage 14 is the thresholded score (division by sqrt 64 = product with 1/8 on every extended real);
    stage 15 the row maximum as a fold from -inf, stage 17 that maximum once more against -inf;
    stage 21 the shifted exponential, stage 22 zero plus the row's sum of them;
    stage 25 the quotient, which is the probability where the scores are real (a nonzero denominator);
    stage 26 the context.
-/
import proofs.«406578_j80496277061751_3_alg».proof.Defs
import proofs.«406578_j80496277061751_3_alg».proof.Proof.Gen.ReferenceIdeal.Run
import proofs.«406578_j80496277061751_3_alg».proof.Proof.Gen.ReferenceIdeal.Read
import proofs.«406578_j80496277061751_3_alg».proof.Proof.Softmax

noncomputable section

namespace Cert.ReferenceIdeal.RefValue

open Cert.ReferenceIdeal Cert.ReferenceIdeal.Gen Cert.ReferenceIdeal.Read Cert.Softmax
open Idealize.ShloMosaic Idealize.ShloMosaic.ValueIdx

/-- A [2, 16, 2048, 64] array as a function of its coordinates. -/
abbrev byCoords (a : S2x16x2048x64.Idx → EReal) : Fin 2 → Fin 16 → Fin 2048 → Fin 64 → EReal :=
  fun b h s d => a (ix4 b h s d)

/-- The [1, 1, 2048, 2048] mask as a function of (query row, key row). -/
abbrev maskByCoords (x3 : S1x1x2048x2048.Idx → EReal) : Fin 2048 → Fin 2048 → EReal :=
  fun q k => x3 (ix4 (0 : Fin 1) (0 : Fin 1) q k)

variable (x0 x1 x2 : (⟨S2x2048x1024, .f32⟩ : BufTy).Contents (Elt Ideal)) (x3 : (⟨S1x1x2048x2048, .f32⟩ : BufTy).Contents (Elt Ideal))

/-- The heads' queries, keys and values, and the mask, by coordinates. -/
abbrev qf := byCoords (val_main_v1 (F := Ideal) x0)
abbrev kf := byCoords (val_main_v3 (F := Ideal) x1)
abbrev vf := byCoords (val_main_v5 (F := Ideal) x2)
abbrev mf := maskByCoords x3

/-! ## Index equations: the generated operand indices at coordinates -/

theorem lidx7 (b : Fin 2) (h : Fin 16) (q k : Fin 2048) (d : Fin 64) : lidx_main_v7 (ix4 b h q k) d = ix4 b h q d :=
  funext fun a => Fin.ext (by match a with | ⟨0, _⟩ => rfl | ⟨1, _⟩ => rfl | ⟨2, _⟩ => rfl | ⟨3, _⟩ => rfl)
theorem ridx7 (b : Fin 2) (h : Fin 16) (q k : Fin 2048) (d : Fin 64) : ridx_main_v7 (ix4 b h q k) d = ix4 b h k d :=
  funext fun a => Fin.ext (by match a with | ⟨0, _⟩ => rfl | ⟨1, _⟩ => rfl | ⟨2, _⟩ => rfl | ⟨3, _⟩ => rfl)
theorem idx10 (b : Fin 2) (h : Fin 16) (q k : Fin 2048) : idx_main_v10 (ix4 b h q k) = ix4 (0 : Fin 1) (0 : Fin 1) q k :=
  funext fun a => Fin.ext (by match a with | ⟨0, _⟩ => rfl | ⟨1, _⟩ => rfl | ⟨2, _⟩ => rfl | ⟨3, _⟩ => rfl)
theorem idx18_19 (b : Fin 2) (h : Fin 16) (q k : Fin 2048) : idx_main_v18 (idx_main_v19 (ix4 b h q k)) = ix3 b h q :=
  funext fun a => Fin.ext (by match a with | ⟨0, _⟩ => rfl | ⟨1, _⟩ => rfl | ⟨2, _⟩ => rfl)
theorem idx23_24 (b : Fin 2) (h : Fin 16) (q k : Fin 2048) : idx_main_v23 (idx_main_v24 (ix4 b h q k)) = ix3 b h q :=
  funext fun a => Fin.ext (by match a with | ⟨0, _⟩ => rfl | ⟨1, _⟩ => rfl | ⟨2, _⟩ => rfl)
theorem idx22 (b : Fin 2) (h : Fin 16) (q k : Fin 2048) : idx_main_v22 (ix3 b h q) k = ix4 b h q k :=
  funext fun a => Fin.ext (by match a with | ⟨0, _⟩ => rfl | ⟨1, _⟩ => rfl | ⟨2, _⟩ => rfl | ⟨3, _⟩ => rfl)
theorem lidx26 (b : Fin 2) (h : Fin 16) (q k : Fin 2048) (d : Fin 64) : lidx_main_v26 (ix4 b h q d) k = ix4 b h q k :=
  funext fun a => Fin.ext (by match a with | ⟨0, _⟩ => rfl | ⟨1, _⟩ => rfl | ⟨2, _⟩ => rfl | ⟨3, _⟩ => rfl)
theorem ridx26 (b : Fin 2) (h : Fin 16) (q k : Fin 2048) (d : Fin 64) : ridx_main_v26 (ix4 b h q d) k = ix4 b h k d :=
  funext fun a => Fin.ext (by match a with | ⟨0, _⟩ => rfl | ⟨1, _⟩ => rfl | ⟨2, _⟩ => rfl | ⟨3, _⟩ => rfl)

/-- The key axis is the one reduced: a row's index with key k put back is (b, h, q, k). -/
theorem hred : S2x16x2048x2048.Reduces [3] S2x16x2048 := by decide
theorem lift_row (b : Fin 2) (h : Fin 16) (q : Fin 2048) (k : Fin (S2x16x2048x2048.size 3)) :
    hred.lift (ix3 b h q) k = ix4 b h q (⟨k.val, k.isLt⟩ : Fin 2048) := by
  funext c; apply Fin.ext
  fin_cases c <;> rfl

/-! ## The stages at coordinates -/

/-- Stage 14: the thresholded score. -/
theorem score_at (b : Fin 2) (h : Fin 16) (q k : Fin 2048) :
    val_main_v14 (F := Ideal) x0 x1 x3 (ix4 b h q k) = score (qf x0) (kf x1) (mf x3) b h q k := by
  rw [val_main_v14_apply, val_main_v13_apply, val_main_v11_apply, val_main_v9_apply, val_main_v10_apply, val_main_v7_apply,
    val_main_v8_apply, val_main_v6_apply, val_main_cst_apply, val_main_v12_apply, val_main_cst_0_apply,
    val_main_call0_v0_apply, val_main_cst_1_apply]
  simp only [Ideal.hostDivf_def, Ideal.mulf_def, Ideal.hostUnary_sqrt_def, Ideal.ofBits_def, Ideal.cmpf_def]
  rw [div_sqrt_64, select_cmp_eq_thr]
  simp only [lidx7, ridx7, idx10]
  rfl

/-- Stage 15: the row maximum, folded from -inf over the keys. -/
theorem rowMax_at (b : Fin 2) (h : Fin 16) (q : Fin 2048) :
    val_main_v15 (F := Ideal) x0 x1 x3 (ix3 b h q) = rowMax (fun k : Fin 2048 => score (qf x0) (kf x1) (mf x3) b h q k) := by
  unfold val_main_v15
  rw [Host.reduce_eq_fold_single FloatOps.maximumf _ _ reducesTo_S2x16x2048x2048_S2x16x2048_d3 hred h_S_]
  have hf : (val_main_v14 (F := Ideal) x0 x1 x3 ∘ hred.lift (ix3 b h q))
      = fun k : Fin 2048 => score (qf x0) (kf x1) (mf x3) b h q k :=
    funext fun k => by
      show val_main_v14 (F := Ideal) x0 x1 x3 (hred.lift (ix3 b h q) k) = _
      rw [lift_row]; exact score_at x0 x1 x3 b h q _
  rw [hf, val_main_cst_2_apply]
  show Finset.fold max (Ideal.ofBits .f32 0xFF800000#32) _ _ = _
  rw [ofBits_neg_inf]
  rfl

/-- Stage 19 (through 17 and 18): that maximum once more against -inf, broadcast along the row. -/
theorem shift_at (b : Fin 2) (h : Fin 16) (q k : Fin 2048) :
    val_main_v19 (F := Ideal) x0 x1 x3 (ix4 b h q k)
      = max ⊥ (rowMax (fun k : Fin 2048 => score (qf x0) (kf x1) (mf x3) b h q k)) := by
  rw [val_main_v19_apply, val_main_v18_apply, idx18_19, val_main_v17_apply, val_main_v16_apply, val_main_cst_3_apply,
    rowMax_at]
  simp only [Ideal.maximumf_def, Ideal.ofBits_def, ofBits_neg_inf]

/-- Stage 21: the shifted exponential. -/
theorem exp_at (b : Fin 2) (h : Fin 16) (q k : Fin 2048) :
    val_main_v21 (F := Ideal) x0 x1 x3 (ix4 b h q k)
      = Ideal.exp (score (qf x0) (kf x1) (mf x3) b h q k
          - max ⊥ (rowMax (fun k : Fin 2048 => score (qf x0) (kf x1) (mf x3) b h q k))) := by
  rw [val_main_v21_apply, val_main_v20_apply, score_at, shift_at]
  simp only [Ideal.hostUnary_exp_def, Ideal.subf_def]

/-- Stage 24 (through 22 and 23): zero plus the row's sum of exponentials, broadcast along the row. -/
theorem den_at (b : Fin 2) (h : Fin 16) (q k : Fin 2048) :
    val_main_v24 (F := Ideal) x0 x1 x3 (ix4 b h q k)
      = 0 + ∑ k' : Fin 2048, Ideal.exp (score (qf x0) (kf x1) (mf x3) b h q k'
          - max ⊥ (rowMax (fun k : Fin 2048 => score (qf x0) (kf x1) (mf x3) b h q k))) := by
  rw [val_main_v24_apply, val_main_v23_apply, idx23_24, val_main_v22_apply, val_main_cst_4_apply]
  simp only [idx22, exp_at, Ideal.ofBits_def, ofBits_zero]

section Finite

variable (h0 : ∀ i, IsFin (x0 i)) (h1 : ∀ i, IsFin (x1 i)) (h3 : ∀ i, IsFin (x3 i))
include h0 h1 h3

/-- The head arrays only re-lay the inputs, so their entries are real where the inputs' are. -/
theorem score_isFin_at (b : Fin 2) (h : Fin 16) (q k : Fin 2048) : IsFin (score (qf x0) (kf x1) (mf x3) b h q k) :=
  score_isFin (fun b h s d => by show IsFin (val_main_v1 (F := Ideal) x0 _); rw [val_main_v1_apply, val_main_v0_apply]; exact h0 _)
    (fun b h s d => by show IsFin (val_main_v3 (F := Ideal) x1 _); rw [val_main_v3_apply, val_main_v2_apply]; exact h1 _)
    (fun q k => h3 _) b h q k

/-- Stage 25: the alignment. -/
theorem align_at (b : Fin 2) (h : Fin 16) (q k : Fin 2048) :
    val_main_v25 (F := Ideal) x0 x1 x3 (ix4 b h q k) = align (qf x0) (kf x1) (mf x3) b h q k := by
  rw [val_main_v25_apply, exp_at, den_at]
  simp only [Ideal.hostDivf_def]
  exact div_spelling_eq_prob (fun k' : Fin 2048 => score (qf x0) (kf x1) (mf x3) b h q k')
    (fun k' => score_isFin_at x0 x1 x3 h0 h1 h3 b h q k') k

/-- Stage 26: the context. -/
theorem ctx_at (b : Fin 2) (h : Fin 16) (q : Fin 2048) (d : Fin 64) :
    val_main_v26 (F := Ideal) x0 x1 x2 x3 (ix4 b h q d) = ctx (qf x0) (kf x1) (vf x2) (mf x3) b h q d := by
  rw [val_main_v26_apply]
  simp only [lidx26, ridx26, align_at x0 x1 x3 h0 h1 h3]
  rfl

/-- The alignment result as an array. -/
theorem align_eq : val_main_v25 (F := Ideal) x0 x1 x3
    = fun i : S2x16x2048x2048.Idx => align (qf x0) (kf x1) (mf x3) (i 0) (i 1) (i 2) (i 3) := by
  funext i
  obtain ⟨b, h, q, k, rfl⟩ : ∃ (b : Fin 2) (h : Fin 16) (q k : Fin 2048), i = ix4 b h q k := ⟨i 0, i 1, i 2, i 3, eq_ix4 i⟩
  exact align_at x0 x1 x3 h0 h1 h3 b h q k

/-- The context before its last re-laying, as an array. -/
theorem ctx_eq : val_main_v26 (F := Ideal) x0 x1 x2 x3
    = fun i : S2x16x2048x64.Idx => ctx (qf x0) (kf x1) (vf x2) (mf x3) (i 0) (i 1) (i 2) (i 3) := by
  funext i
  obtain ⟨b, h, q, d, rfl⟩ : ∃ (b : Fin 2) (h : Fin 16) (q : Fin 2048) (d : Fin 64), i = ix4 b h q d := ⟨i 0, i 1, i 2, i 3, eq_ix4 i⟩
  exact ctx_at x0 x1 x2 x3 h0 h1 h3 b h q d

end Finite

end Cert.ReferenceIdeal.RefValue

end
-- ==== Proof.KernelBody.lean ====
/-
  The kernel's body read at an index, on the extended reals.

  One grid point holds a [512, 64] block of queries, the whole [2048, 64] keys and values of one head, and a
  [512, 2048] tile of the mask.  The body contracts queries against keys over the 64 channels (a product into a zero
  accumulator: just the sum), scales by the word 0.125, multiplies by the mask tile, replaces exact zeros by -10^9,
  takes each row's maximum (a fold of max from -inf), exponentiates the shifted row, sums it, and multiplies each
  exponential by the reciprocal of the row's sum: at (r, k) that is the probability of Proof/Softmax.lean on the row
  of thresholded scores of block row r.  The second store contracts these probabilities against the values over the
  2048 keys.  Format changes are the identity on the extended reals; the casts only add or drop unit axes.
-/
import proofs.«406578_j80496277061751_3_alg».proof.Proof.Gen.KernelIdeal.Skeleton
import proofs.«406578_j80496277061751_3_alg».proof.Proof.Softmax
import proofs.«406578_j80496277061751_3_alg».proof.Proof.LibUnitAxes
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Cert.Softmax Cert.Lib
open Idealize.ShloMosaic Idealize.ShloMosaic.ValueIdx

/-! ## Small facts at the ideal instance -/

theorem exp_apply {s : Shape} {φ : FTy} (x : FVec Ideal s φ) (i : s.Idx) : exp x i = Ideal.exp (x i) := rfl
theorem scalar_ofBits (φ : FTy) (b : BitVec φ.bits) : Scalar.ofBits (F := Ideal) φ b = Ideal.ofBits φ b := rfl

/-! ## The two contractions -/

theorem lhs1_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs1_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs1_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs1_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- Queries against keys: at (r, k) the sum over the 64 channels of query row r times key row k. -/
theorem scores_apply (a : FVec Ideal S512x64 .bf16) (b : FVec Ideal S2048x64 .bf16) (r : Fin 512) (k : Fin 2048) :
    matmul dot_S512x64_S2048x64_S512x2048_1_1_0_0_n_n none a b (constant S512x2048 .f32 0x00000000#32) (ix2 r k)
      = ∑ d : Fin 64, a (ix2 r d) * b (ix2 k d) := by
  simp only [matmul]
  rw [Ideal.matmul_constant_zero_apply, ← Equiv.sum_comp (contrEquiv1 dot_S512x64_S2048x64_S512x2048_1_1_0_0_n_n 64 rfl rfl).symm]
  refine Finset.sum_congr rfl fun d _ => ?_
  have hk := contrEquiv1_symm_val dot_S512x64_S2048x64_S512x2048_1_1_0_0_n_n 64 rfl rfl d
  have el : dot_S512x64_S2048x64_S512x2048_1_1_0_0_n_n.lhsIdx (ix2 r k) ((contrEquiv1 dot_S512x64_S2048x64_S512x2048_1_1_0_0_n_n 64 rfl rfl).symm d) = ix2 r d := funext fun ax => Fin.ext (by
    match ax with
    | ⟨0, _⟩ => exact lhs1_0 _ _
    | ⟨1, _⟩ => exact (lhs1_1 _ _).trans hk)
  have er : dot_S512x64_S2048x64_S512x2048_1_1_0_0_n_n.rhsIdx (ix2 r k) ((contrEquiv1 dot_S512x64_S2048x64_S512x2048_1_1_0_0_n_n 64 rfl rfl).symm d) = ix2 k d := funext fun ax => Fin.ext (by
    match ax with
    | ⟨0, _⟩ => exact rhs1_0 _ _
    | ⟨1, _⟩ => exact (rhs1_1 _ _).trans hk)
  rw [el, er]

theorem lhs2_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs2_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs2_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs2_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Probabilities against values: at (r, d) the sum over the 2048 keys of probability (r, k) times value (k, d). -/
theorem context_apply (p : FVec Ideal S512x2048 .bf16) (w : FVec Ideal S2048x64 .bf16) (r : Fin 512) (d : Fin 64) :
    matmul dot_S512x2048_S2048x64_S512x64_1_0_0_1_n_n none p w (constant S512x64 .f32 0x00000000#32) (ix2 r d)
      = ∑ k : Fin 2048, p (ix2 r k) * w (ix2 k d) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k := funext fun ax => Fin.ext (by
    match ax with
    | ⟨0, _⟩ => exact lhs2_0 _ _
    | ⟨1, _⟩ => exact (lhs2_1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d := funext fun ax => Fin.ext (by
    match ax with
    | ⟨0, _⟩ => exact (rhs2_0 _ _).trans hk
    | ⟨1, _⟩ => exact rhs2_1 _ _)
  rw [el, er]

/-! ## The two row reductions -/

/-- A row's maximum: the fold of max from -inf over the 2048 keys. -/
theorem rowMax_apply (x : FVec Ideal S512x2048 .f32) (h : S512x2048.Reduces [1] S512) (hφ : FKind.Formats .f32)
    (hacc : (0xFF800000#32 : BitVec 32) = FKind.maximumf.neutral .f32 hφ) (r : Fin 512) :
    multiReduction .maximumf [1] S512 x 0xFF800000#32 h hφ hacc (ix1 r) = rowMax (fun k : Fin 2048 => x (ix2 r k)) := by
  rw [Ideal.multiReduction_maximumf_single]
  have hf : (x ∘ h.lift (ix1 r)) = fun k : Fin 2048 => x (ix2 r k) := funext fun k => congrArg x (lift_row_col h r k)
  rw [hf]
  show Finset.fold max (Ideal.ofBits .f32 0xFF800000#32) _ _ = _
  rw [ofBits_neg_inf]
  rfl

/-- A row's sum over the 2048 keys. -/
theorem rowSum_apply (x : FVec Ideal S512x2048 .f32) (h : S512x2048.Reduces [1] S512) (hφ : FKind.Formats .f32)
    (hacc : (0x00000000#32 : BitVec 32) = FKind.add.neutral .f32 hφ) (r : Fin 512) :
    multiReduction .add [1] S512 x 0x00000000#32 h hφ hacc (ix1 r) = ∑ k : Fin 2048, x (ix2 r k) := by
  rw [Ideal.multiReduction_add_single]
  exact Finset.sum_congr rfl fun k _ => congrArg x (lift_row_col h r k)

/-! ## The payloads at an index -/

/-- Block row r's thresholded scores against the 2048 keys. -/
def srow (X0 : Vec Ideal S1x1x512x64 .f32) (X1 : Vec Ideal S1x1x2048x64 .f32) (MT : Vec Ideal S512x2048 .bf16)
    (r : Fin 512) : Fin 2048 → EReal :=
  fun k => thr ((∑ d : Fin 64, X0 (ix4 (0 : Fin 1) (0 : Fin 1) r d) * X1 (ix4 (0 : Fin 1) (0 : Fin 1) k d))
    * ((1 / 8 : ℝ) : EReal) * MT (ix2 r k))

/-- The thresholded score tile at (r, k'): the contraction scaled by 1/8, times the mask entry, exact zeros replaced. -/
theorem score_tile (X0 : FVec Ideal S1x1x512x64 .f32) (X1 : FVec Ideal S1x1x2048x64 .f32) (MT : FVec Ideal S512x2048 .bf16)
    (r : Fin 512) (k : Fin 2048) :
    (select (cmpf .oeq
        (mulf (mulf (matmul dot_S512x64_S2048x64_S512x2048_1_1_0_0_n_n none
            (truncf .bf16 (shapeCast S512x64 X0 shapeCasts_S1x1x512x64_S512x64) bitsLt_bf16_f32)
            (truncf .bf16 (shapeCast S2048x64 X1 shapeCasts_S1x1x2048x64_S2048x64) bitsLt_bf16_f32)
            (constant S512x2048 .f32 0x00000000#32))
          (broadcast S512x2048 (Scalar.ofBits .f32 0x3E000000#32)))
          (extf .f32 (shapeCast S512x2048 MT shapeCasts_S512x2048_S512x2048) bitsLt_bf16_f32))
        (broadcast S512x2048 (Scalar.ofBits .f32 0x00000000#32)))
      (broadcast S512x2048 (Scalar.ofBits .f32 0xCE6E6B28#32))
      (mulf (mulf (matmul dot_S512x64_S2048x64_S512x2048_1_1_0_0_n_n none
            (truncf .bf16 (shapeCast S512x64 X0 shapeCasts_S1x1x512x64_S512x64) bitsLt_bf16_f32)
            (truncf .bf16 (shapeCast S2048x64 X1 shapeCasts_S1x1x2048x64_S2048x64) bitsLt_bf16_f32)
            (constant S512x2048 .f32 0x00000000#32))
          (broadcast S512x2048 (Scalar.ofBits .f32 0x3E000000#32)))
          (extf .f32 (shapeCast S512x2048 MT shapeCasts_S512x2048_S512x2048) bitsLt_bf16_f32))
      : FVec Ideal S512x2048 .f32) (ix2 r k) = srow X0 X1 MT r k := by
  simp only [mulf_apply, cmpf_apply, select_apply, broadcast_apply, truncf_apply, extf_apply, scores_apply,
    shapeCast_self, shapeCast_11ab_ab_apply, Ideal.cmpf_def, scalar_ofBits, select_cmp_eq_thr, ofBits_eighth]
  rfl

/-- A tile's rows normalised: shifted by the row maximum, exponentiated, each exponential times the reciprocal of
    the row's sum.  At (r, k) it is the probability of row r at key k. -/
theorem softmax_tile (T : FVec Ideal S512x2048 .f32) (h : S512x2048.Reduces [1] S512) (hφ : FKind.Formats .f32)
    (hm : (0xFF800000#32 : BitVec 32) = FKind.maximumf.neutral .f32 hφ)
    (ha : (0x00000000#32 : BitVec 32) = FKind.add.neutral .f32 hφ)
    (h1 : S512.ShapeCasts S512x1) (h2 : S512x1.Broadcasts S512x2048) (r : Fin 512) (k : Fin 2048) :
    (mulf (exp (subf T (broadcastTo S512x2048 (shapeCast S512x1 (multiReduction .maximumf [1] S512 T 0xFF800000#32 h hφ hm) h1) h2)))
      (broadcastTo S512x2048
        (divf (broadcast S512x1 (Scalar.ofBits .f32 0x3F800000#32))
          (shapeCast S512x1 (multiReduction .add [1] S512
            (exp (subf T (broadcastTo S512x2048 (shapeCast S512x1 (multiReduction .maximumf [1] S512 T 0xFF800000#32 h hφ hm) h1) h2)))
            0x00000000#32 h hφ ha) h1)) h2) : FVec Ideal S512x2048 .f32) (ix2 r k)
      = prob (fun k' : Fin 2048 => T (ix2 r k')) k := by
  have hshift : ∀ k' : Fin 2048,
      (exp (subf T (broadcastTo S512x2048 (shapeCast S512x1 (multiReduction .maximumf [1] S512 T 0xFF800000#32 h hφ hm) h1) h2))
        : FVec Ideal S512x2048 .f32) (ix2 r k') = rowExp (fun k'' : Fin 2048 => T (ix2 r k'')) k' := by
    intro k'
    rw [exp_apply, subf_apply, column_spread_apply, rowMax_apply]
    rfl
  rw [mulf_apply, hshift, broadcastTo_a1_ab_apply, divf_apply, broadcast_apply, shapeCast_a_a1_apply, rowSum_apply]
  simp only [hshift, scalar_ofBits, ofBits_one]
  rfl

/-- The probabilities the body computes: at (r, k), row r's softmax at key k. -/
theorem pay4_at (X0 : Vec Ideal S1x1x512x64 .f32) (X1 : Vec Ideal S1x1x2048x64 .f32) (MT : Vec Ideal S512x2048 .bf16)
    (r : Fin 512) (k : Fin 2048) : k0_pay4 (F := Ideal) X0 X1 MT (ix2 r k) = prob (srow X0 X1 MT r) k := by
  unfold k0_pay4
  refine (softmax_tile _ _ _ _ _ _ _ r k).trans ?_
  exact congrArg (fun s => prob s k) (funext fun k' => score_tile X0 X1 MT r k')

/-- The first store's payload only adds two unit axes. -/
theorem pay1_at (P : FVec Ideal S512x2048 .f32) (r : Fin 512) (k : Fin 2048) :
    k0_pay1 (F := Ideal) P (ix4 (0 : Fin 1) (0 : Fin 1) r k) = P (ix2 r k) := by
  unfold k0_pay1
  exact shapeCast_ab_11ab_apply P _ _ _ r k

/-- The values as the body holds them: two unit axes dropped. -/
theorem pay3_at (X2 : Vec Ideal S1x1x2048x64 .f32) (k : Fin 2048) (d : Fin 64) :
    k0_pay3 (F := Ideal) X2 (ix2 k d) = X2 (ix4 (0 : Fin 1) (0 : Fin 1) k d) := by
  unfold k0_pay3
  simp only [truncf_apply, shapeCast_11ab_ab_apply]

/-- The second store's payload: the probabilities contracted against the values. -/
theorem pay2_at (W : FVec Ideal S2048x64 .bf16) (P : FVec Ideal S512x2048 .f32) (r : Fin 512) (d : Fin 64) :
    k0_pay2 (F := Ideal) W P (ix4 (0 : Fin 1) (0 : Fin 1) r d) = ∑ k : Fin 2048, P (ix2 r k) * W (ix2 k d) := by
  unfold k0_pay2
  rw [shapeCast_ab_11ab_apply, context_apply]
  rfl

end Cert.KernelIdeal.Body

end
-- ==== Proof.KernelPieces.lean ====
/-
  What one run of the body leaves in its two output buffers, as values of the blocks it was given.

  The body stores each output block whole, once; what a buffer holds afterwards is that store's payload, whose loads
  read the query, key and value blocks whole and the mask through the 512 rows that start at row 512 * (the grid's
  third coordinate).  So the alignment block is the probabilities of the query block against the keys under that mask
  tile, and the context block their contraction against the values.
-/
import proofs.«406578_j80496277061751_3_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz4 : (![0, 0, 0, 0] : Fin 4 → Nat) = fun _ => 0 := funext fun a => by fin_cases a <;> rfl

/-- The mask tile of a grid point: the 512 rows of the resident [2048, 2048] mask from the point's row offset. -/
abbrev maskTile (i : grid0.Coords) (x3 : Vec F S2048x2048 .bf16) : Vec F S512x2048 .bf16 :=
  View.ld x3 (Rect.unit (s := S2048x2048) (k0_off1 i) S512x2048.size (k0_off1_inb i))

/-- The alignment buffer after the body: the probabilities, with two unit axes. -/
theorem out5_eq (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S2048x2048 .bf16) (harg6 : arg6.IsWhole) (arg7 : Memref sig .tc .vmem S1x1x512x64 .f32) (harg7 : arg7.IsWhole) (arg8 : Memref sig .tc .vmem S1x1x512x2048 .f32) (harg8 : arg8.IsWhole)
    (x0 : Vec F S1x1x512x64 .f32) (x1 : Vec F S1x1x2048x64 .f32) (x2 : Vec F S1x1x2048x64 .f32) (x3 : Vec F S2048x2048 .bf16) :
    out0_A_5 c i arg3 harg3 arg4 harg4 arg5 harg5 arg6 harg6 arg7 harg7 arg8 harg8 x0 x1 x2 x3 = k0_pay1 (k0_pay4 x0 x1 (maskTile i x3)) := by
  unfold out0_A_5
  rw [View.read_writes_eq_canon _ _ _ (cover0_A_5 c i arg3 harg3 arg4 harg4 arg5 harg5 arg6 harg6 arg7 harg7 arg8 harg8 x0 x1 x2 x3)]
  unfold kernelRun0_A
  dsimp only
  sl_unfold_words
  rw [View.canon_unit_zero hz4]
  simp only [View.readAt_eq_ld, harg3.read_unread, harg4.read_unread, harg6.read_unread,
    View.ld_unit_zero (S := S1x1x512x64) hz4, View.ld_unit_zero (S := S1x1x2048x64) hz4]
  rfl

/-- The context buffer after the body: the probabilities contracted against the values, with two unit axes. -/
theorem out4_eq (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S2048x2048 .bf16) (harg6 : arg6.IsWhole) (arg7 : Memref sig .tc .vmem S1x1x512x64 .f32) (harg7 : arg7.IsWhole) (arg8 : Memref sig .tc .vmem S1x1x512x2048 .f32) (harg8 : arg8.IsWhole)
    (x0 : Vec F S1x1x512x64 .f32) (x1 : Vec F S1x1x2048x64 .f32) (x2 : Vec F S1x1x2048x64 .f32) (x3 : Vec F S2048x2048 .bf16) :
    out0_A_4 c i arg3 harg3 arg4 harg4 arg5 harg5 arg6 harg6 arg7 harg7 arg8 harg8 x0 x1 x2 x3 = k0_pay2 (k0_pay3 x2) (k0_pay4 x0 x1 (maskTile i x3)) := by
  unfold out0_A_4
  rw [View.read_writes_eq_canon _ _ _ (cover0_A_4 c i arg3 harg3 arg4 harg4 arg5 harg5 arg6 harg6 arg7 harg7 arg8 harg8 x0 x1 x2 x3)]
  unfold kernelRun0_A
  dsimp only
  sl_unfold_words
  rw [View.canon_unit_zero hz4]
  simp only [View.readAt_eq_ld, harg3.read_unread, harg4.read_unread, harg5.read_unread, harg6.read_unread,
    View.ld_unit_zero (S := S1x1x512x64) hz4, View.ld_unit_zero (S := S1x1x2048x64) hz4]
  rfl

end Cert.KernelIdeal.Pieces

end
-- ==== Proof.KernelValue.lean ====
/-
  The kernel's two output arrays after the run, and @main's results.

  The grid's 128 points are (b, h, j): batch, head, and a block of 512 query rows.  At a point the query window
  holds rows 512 j .. 512 j + 511 of head (b, h), the key and value windows the head's whole [2048, 64] arrays, the mask
  window the whole [2048, 2048] mask, of which the body reads the 512 rows from 512 j; the two output windows write
  rows 512 j .. 512 j + 511 of head (b, h) of the context and of the alignment.  So what a point writes back is the block
  of ONE whole-array function, the attention of Proof/Softmax.lean over the arrays the region finds, and since the
  points' blocks cover both arrays, each array ends as that function.  The first result is the context array re-laid
  as [2, 2048, 1024] by the reshape after the region.
-/
import proofs.«406578_j80496277061751_3_alg».proof.Proof.KernelBody
import proofs.«406578_j80496277061751_3_alg».proof.Proof.KernelPieces
import Idealize.ShloMosaic.Lib.Pipeline.Value
import Idealize.ShloMosaic.Lib.StableHlo.Run
import Idealize.ShloMosaic.Lib.Tactic

set_option maxRecDepth 16384

noncomputable section

namespace Cert.KernelIdeal.KValue

open Cert.KernelIdeal Cert.KernelIdeal.Gen Cert.KernelIdeal.Body Cert.KernelIdeal.Pieces Cert.Softmax
open Idealize.ShloMosaic Idealize.ShloMosaic.TcCoe Idealize.SL.Sem Idealize.ShloMosaic.ValueIdx
open Idealize.ShloMosaic.Pipeline (Dat)

/-! ## The grid's index maps, decided once -/

/-- Each window's block index at a point against the alignment window's (batch, head, row block, 0): the query and
    context windows move with it, the key and value windows with its batch and head only, the mask window not at all;
    the third grid coordinate is the row block. -/
theorem idx_facts : ∀ t : Fin cfg0.N,
    win0_0.index t (0 : Fin 4) = win0_5.index t (0 : Fin 4) ∧ win0_0.index t (1 : Fin 4) = win0_5.index t (1 : Fin 4)
    ∧ win0_0.index t (2 : Fin 4) = win0_5.index t (2 : Fin 4) ∧ win0_0.index t (3 : Fin 4) = 0
    ∧ win0_1.index t (0 : Fin 4) = win0_5.index t (0 : Fin 4) ∧ win0_1.index t (1 : Fin 4) = win0_5.index t (1 : Fin 4)
    ∧ win0_1.index t (2 : Fin 4) = 0 ∧ win0_1.index t (3 : Fin 4) = 0
    ∧ win0_2.index t (0 : Fin 4) = win0_5.index t (0 : Fin 4) ∧ win0_2.index t (1 : Fin 4) = win0_5.index t (1 : Fin 4)
    ∧ win0_2.index t (2 : Fin 4) = 0 ∧ win0_2.index t (3 : Fin 4) = 0
    ∧ win0_3.index t (0 : Fin 2) = 0 ∧ win0_3.index t (1 : Fin 2) = 0
    ∧ win0_4.index t (0 : Fin 4) = win0_5.index t (0 : Fin 4) ∧ win0_4.index t (1 : Fin 4) = win0_5.index t (1 : Fin 4)
    ∧ win0_4.index t (2 : Fin 4) = win0_5.index t (2 : Fin 4) ∧ win0_4.index t (3 : Fin 4) = 0
    ∧ win0_5.index t (3 : Fin 4) = 0
    ∧ win0_5.index t (0 : Fin 4) < 2 ∧ win0_5.index t (1 : Fin 4) < 16 ∧ win0_5.index t (2 : Fin 4) < 4
    ∧ (grid0.coords t 2).val = win0_5.index t (2 : Fin 4) :=
  (by decide +kernel : ∀ t : Fin grid0.N, _)

/-- Every (batch, head, row block) is some point's. -/
theorem idx_onto : ∀ (b : Fin 2) (h : Fin 16) (j : Fin 4), ∃ t : Fin cfg0.N, win0_5.index t = ![b.val, h.val, j.val, 0] :=
  (by decide +kernel : ∀ (b : Fin 2) (h : Fin 16) (j : Fin 4), ∃ t : Fin grid0.N, win0_5.index t = ![b.val, h.val, j.val, 0])

/-- A point's batch, head and row block, and the array row of its block row r. -/
def pb (t : Fin cfg0.N) : Fin 2 := ⟨win0_5.index t (0 : Fin 4), (idx_facts t).2.2.2.2.2.2.2.2.2.2.2.2.2.2.2.2.2.2.2.1⟩
def ph (t : Fin cfg0.N) : Fin 16 := ⟨win0_5.index t (1 : Fin 4), (idx_facts t).2.2.2.2.2.2.2.2.2.2.2.2.2.2.2.2.2.2.2.2.1⟩
def pj (t : Fin cfg0.N) : Fin 4 := ⟨win0_5.index t (2 : Fin 4), (idx_facts t).2.2.2.2.2.2.2.2.2.2.2.2.2.2.2.2.2.2.2.2.2.1⟩
def prow (t : Fin cfg0.N) (r : Fin 512) : Fin 2048 := ⟨(pj t).val * 512 + r.val, by have := (pj t).isLt; have := r.isLt; omega⟩

/-! ## The windows' blocks read at coordinates, for any array -/

theorem read_blk0 (G : FVec Ideal S2x16x2048x64 .f32) (t : Fin cfg0.N) (u v : Fin 1) (r : Fin 512) (d : Fin 64) :
    (((cfg0.win 0).blk t).view.read (Elt Ideal) G : Vec Ideal S1x1x512x64 .f32) (ix4 u v r d) = G (ix4 (pb t) (ph t) (prow t r) d) := by
  rw [View.read_apply]
  show G _ = G _
  refine congrArg G (funext fun a => Fin.ext ?_)
  obtain ⟨e0, e1, e2, e3, -⟩ := idx_facts t
  have hu : u.val = 0 := by omega
  have hv : v.val = 0 := by omega
  match a with
  | ⟨0, _⟩ => show win0_0.index t (0 : Fin 4) * 1 + 1 * u.val = win0_5.index t (0 : Fin 4); omega
  | ⟨1, _⟩ => show win0_0.index t (1 : Fin 4) * 1 + 1 * v.val = win0_5.index t (1 : Fin 4); omega
  | ⟨2, _⟩ => show win0_0.index t (2 : Fin 4) * 512 + 1 * r.val = win0_5.index t (2 : Fin 4) * 512 + r.val; omega
  | ⟨3, _⟩ => show win0_0.index t (3 : Fin 4) * 64 + 1 * d.val = d.val; omega

theorem read_blk1 (G : FVec Ideal S2x16x2048x64 .f32) (t : Fin cfg0.N) (u v : Fin 1) (k : Fin 2048) (d : Fin 64) :
    (((cfg0.win 1).blk t).view.read (Elt Ideal) G : Vec Ideal S1x1x2048x64 .f32) (ix4 u v k d) = G (ix4 (pb t) (ph t) k d) := by
  rw [View.read_apply]
  show G _ = G _
  refine congrArg G (funext fun a => Fin.ext ?_)
  obtain ⟨-, -, -, -, e0, e1, e2, e3, -⟩ := idx_facts t
  have hu : u.val = 0 := by omega
  have hv : v.val = 0 := by omega
  match a with
  | ⟨0, _⟩ => show win0_1.index t (0 : Fin 4) * 1 + 1 * u.val = win0_5.index t (0 : Fin 4); omega
  | ⟨1, _⟩ => show win0_1.index t (1 : Fin 4) * 1 + 1 * v.val = win0_5.index t (1 : Fin 4); omega
  | ⟨2, _⟩ => show win0_1.index t (2 : Fin 4) * 2048 + 1 * k.val = k.val; omega
  | ⟨3, _⟩ => show win0_1.index t (3 : Fin 4) * 64 + 1 * d.val = d.val; omega

theorem read_blk2 (G : FVec Ideal S2x16x2048x64 .f32) (t : Fin cfg0.N) (u v : Fin 1) (k : Fin 2048) (d : Fin 64) :
    (((cfg0.win 2).blk t).view.read (Elt Ideal) G : Vec Ideal S1x1x2048x64 .f32) (ix4 u v k d) = G (ix4 (pb t) (ph t) k d) := by
  rw [View.read_apply]
  show G _ = G _
  refine congrArg G (funext fun a => Fin.ext ?_)
  obtain ⟨-, -, -, -, -, -, -, -, e0, e1, e2, e3, -⟩ := idx_facts t
  have hu : u.val = 0 := by omega
  have hv : v.val = 0 := by omega
  match a with
  | ⟨0, _⟩ => show win0_2.index t (0 : Fin 4) * 1 + 1 * u.val = win0_5.index t (0 : Fin 4); omega
  | ⟨1, _⟩ => show win0_2.index t (1 : Fin 4) * 1 + 1 * v.val = win0_5.index t (1 : Fin 4); omega
  | ⟨2, _⟩ => show win0_2.index t (2 : Fin 4) * 2048 + 1 * k.val = k.val; omega
  | ⟨3, _⟩ => show win0_2.index t (3 : Fin 4) * 64 + 1 * d.val = d.val; omega

theorem read_blk3 (G : FVec Ideal S2048x2048 .bf16) (t : Fin cfg0.N) (q k : Fin 2048) :
    (((cfg0.win 3).blk t).view.read (Elt Ideal) G : Vec Ideal S2048x2048 .bf16) (ix2 q k) = G (ix2 q k) := by
  rw [View.read_apply]
  show G _ = G _
  refine congrArg G (funext fun a => Fin.ext ?_)
  obtain ⟨-, -, -, -, -, -, -, -, -, -, -, -, e0, e1, -⟩ := idx_facts t
  match a with
  | ⟨0, _⟩ => show win0_3.index t (0 : Fin 2) * 2048 + 1 * q.val = q.val; omega
  | ⟨1, _⟩ => show win0_3.index t (1 : Fin 2) * 2048 + 1 * k.val = k.val; omega

theorem read_blk4 (G : FVec Ideal S2x16x2048x64 .f32) (t : Fin cfg0.N) (u v : Fin 1) (r : Fin 512) (d : Fin 64) :
    (((cfg0.win 4).blk t).view.read (Elt Ideal) G : Vec Ideal S1x1x512x64 .f32) (ix4 u v r d) = G (ix4 (pb t) (ph t) (prow t r) d) := by
  rw [View.read_apply]
  show G _ = G _
  refine congrArg G (funext fun a => Fin.ext ?_)
  obtain ⟨-, -, -, -, -, -, -, -, -, -, -, -, -, -, e0, e1, e2, e3, -⟩ := idx_facts t
  have hu : u.val = 0 := by omega
  have hv : v.val = 0 := by omega
  match a with
  | ⟨0, _⟩ => show win0_4.index t (0 : Fin 4) * 1 + 1 * u.val = win0_5.index t (0 : Fin 4); omega
  | ⟨1, _⟩ => show win0_4.index t (1 : Fin 4) * 1 + 1 * v.val = win0_5.index t (1 : Fin 4); omega
  | ⟨2, _⟩ => show win0_4.index t (2 : Fin 4) * 512 + 1 * r.val = win0_5.index t (2 : Fin 4) * 512 + r.val; omega
  | ⟨3, _⟩ => show win0_4.index t (3 : Fin 4) * 64 + 1 * d.val = d.val; omega

theorem read_blk5 (G : FVec Ideal S2x16x2048x2048 .f32) (t : Fin cfg0.N) (u v : Fin 1) (r : Fin 512) (k : Fin 2048) :
    (((cfg0.win 5).blk t).view.read (Elt Ideal) G : Vec Ideal S1x1x512x2048 .f32) (ix4 u v r k) = G (ix4 (pb t) (ph t) (prow t r) k) := by
  rw [View.read_apply]
  show G _ = G _
  refine congrArg G (funext fun a => Fin.ext ?_)
  obtain ⟨-, -, -, -, -, -, -, -, -, -, -, -, -, -, -, -, -, -, e3, -⟩ := idx_facts t
  have hu : u.val = 0 := by omega
  have hv : v.val = 0 := by omega
  match a with
  | ⟨0, _⟩ => show win0_5.index t (0 : Fin 4) * 1 + 1 * u.val = win0_5.index t (0 : Fin 4); omega
  | ⟨1, _⟩ => show win0_5.index t (1 : Fin 4) * 1 + 1 * v.val = win0_5.index t (1 : Fin 4); omega
  | ⟨2, _⟩ => show win0_5.index t (2 : Fin 4) * 512 + 1 * r.val = win0_5.index t (2 : Fin 4) * 512 + r.val; omega
  | ⟨3, _⟩ => show win0_5.index t (3 : Fin 4) * 2048 + 1 * k.val = k.val; omega

/-- The mask tile a point's body reads: block row r of the tile is mask row 512 j + r. -/
theorem maskTile_at (X : FVec Ideal S2048x2048 .bf16) (t : Fin cfg0.N) (r : Fin 512) (k : Fin 2048) :
    (maskTile (F := Ideal) (grid0.coords t) X : Vec Ideal S512x2048 .bf16) (ix2 r k) = X (ix2 (prow t r) k) := by
  show X _ = X _
  refine congrArg X (funext fun a => Fin.ext ?_)
  have ho := k0_off1_eq (grid0.coords t)
  have hj : (grid0.coords t 2).val = win0_5.index t (2 : Fin 4) := (idx_facts t).2.2.2.2.2.2.2.2.2.2.2.2.2.2.2.2.2.2.2.2.2.2
  match a with
  | ⟨0, _⟩ =>
    show k0_off1 (grid0.coords t) 0 + 1 * r.val = win0_5.index t (2 : Fin 4) * 512 + r.val
    rw [ho]; show 512 * (grid0.coords t 2).val + 1 * r.val = _; omega
  | ⟨1, _⟩ =>
    show k0_off1 (grid0.coords t) 1 + 1 * k.val = k.val
    rw [ho]; show 0 + 1 * k.val = k.val; omega

/-! ## The arrays the region finds, and the attention over them -/

variable (m : (ℓ : Loc nD τ sig) → Buf (Elt Ideal) ℓ) (ρ : Dev nD → PrngReg)

/-- The heads' queries, keys and values and the two-dimensional mask, as the region finds them. -/
abbrev q4 (c : Dev nD) : FVec Ideal S2x16x2048x64 .f32 := V m c main_v1
abbrev k4 (c : Dev nD) : FVec Ideal S2x16x2048x64 .f32 := V m c main_v3
abbrev v4 (c : Dev nD) : FVec Ideal S2x16x2048x64 .f32 := V m c main_v5
abbrev mk2 (c : Dev nD) : FVec Ideal S2048x2048 .bf16 := V m c main_v7

/-- The same by coordinates. -/
abbrev qf (c : Dev nD) : Fin 2 → Fin 16 → Fin 2048 → Fin 64 → EReal := fun b h s d => q4 m c (ix4 b h s d)
abbrev kf (c : Dev nD) : Fin 2 → Fin 16 → Fin 2048 → Fin 64 → EReal := fun b h s d => k4 m c (ix4 b h s d)
abbrev vf (c : Dev nD) : Fin 2 → Fin 16 → Fin 2048 → Fin 64 → EReal := fun b h s d => v4 m c (ix4 b h s d)
abbrev mf (c : Dev nD) : Fin 2048 → Fin 2048 → EReal := fun q k => mk2 m c (ix2 q k)

/-- The alignment and the context as whole arrays. -/
abbrev alignArr (c : Dev nD) : FVec Ideal S2x16x2048x2048 .f32 :=
  fun i => align (qf m c) (kf m c) (mf m c) (i 0) (i 1) (i 2) (i 3)
abbrev ctxArr (c : Dev nD) : FVec Ideal S2x16x2048x64 .f32 :=
  fun i => ctx (qf m c) (kf m c) (vf m c) (mf m c) (i 0) (i 1) (i 2) (i 3)

/-- A point's blocks, at their literal types. -/
abbrev qblk (c : Dev nD) (t : Fin cfg0.N) : Vec Ideal S1x1x512x64 .f32 := iblk m c 0 t
abbrev kblk (c : Dev nD) (t : Fin cfg0.N) : Vec Ideal S1x1x2048x64 .f32 := iblk m c 1 t
abbrev vblk (c : Dev nD) (t : Fin cfg0.N) : Vec Ideal S1x1x2048x64 .f32 := iblk m c 2 t
abbrev mblk (c : Dev nD) (t : Fin cfg0.N) : Vec Ideal S2048x2048 .bf16 := iblk m c 3 t

theorem qblk_at (c : Dev nD) (t : Fin cfg0.N) (r : Fin 512) (d : Fin 64) :
    qblk m c t (ix4 (0 : Fin 1) (0 : Fin 1) r d) = qf m c (pb t) (ph t) (prow t r) d := read_blk0 (q4 m c) t 0 0 r d
theorem kblk_at (c : Dev nD) (t : Fin cfg0.N) (k : Fin 2048) (d : Fin 64) :
    kblk m c t (ix4 (0 : Fin 1) (0 : Fin 1) k d) = kf m c (pb t) (ph t) k d := read_blk1 (k4 m c) t 0 0 k d
theorem vblk_at (c : Dev nD) (t : Fin cfg0.N) (k : Fin 2048) (d : Fin 64) :
    vblk m c t (ix4 (0 : Fin 1) (0 : Fin 1) k d) = vf m c (pb t) (ph t) k d := read_blk2 (v4 m c) t 0 0 k d
theorem mtile_at (c : Dev nD) (t : Fin cfg0.N) (r : Fin 512) (k : Fin 2048) :
    (maskTile (F := Ideal) (grid0.coords t) (mblk m c t) : Vec Ideal S512x2048 .bf16) (ix2 r k) = mf m c (prow t r) k := by
  rw [maskTile_at]
  exact read_blk3 (mk2 m c) t (prow t r) k

/-! ## What a point leaves in the two output buffers -/

/-- The point's row of thresholded scores is the array's. -/
theorem srow_at (c : Dev nD) (t : Fin cfg0.N) (r : Fin 512) :
    srow (qblk m c t) (kblk m c t) (maskTile (F := Ideal) (grid0.coords t) (mblk m c t)) r
      = fun k : Fin 2048 => score (qf m c) (kf m c) (mf m c) (pb t) (ph t) (prow t r) k := by
  funext k
  unfold srow score dotQK
  rw [mtile_at]
  simp only [qblk_at, kblk_at]

/-- The alignment buffer after point t, at block coordinates (r, k). -/
theorem out5_at (c : Dev nD) (t : Fin cfg0.N) (r : Fin 512) (k : Fin 2048) :
    (outsAt0 m c t).2 (ix4 (0 : Fin 1) (0 : Fin 1) r k) = align (qf m c) (kf m c) (mf m c) (pb t) (ph t) (prow t r) k := by
  have e : (outsAt0 m c t).2 = k0_pay1 (k0_pay4 (qblk m c t) (kblk m c t) (maskTile (F := Ideal) (grid0.coords t) (mblk m c t))) := by
    unfold outsAt0; dsimp only
    exact out5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t)
  rw [e, pay1_at, pay4_at, srow_at]
  rfl

/-- The context buffer after point t, at block coordinates (r, d). -/
theorem out4_at (c : Dev nD) (t : Fin cfg0.N) (r : Fin 512) (d : Fin 64) :
    (outsAt0 m c t).1 (ix4 (0 : Fin 1) (0 : Fin 1) r d) = ctx (qf m c) (kf m c) (vf m c) (mf m c) (pb t) (ph t) (prow t r) d := by
  have e : (outsAt0 m c t).1 = k0_pay2 (k0_pay3 (vblk m c t)) (k0_pay4 (qblk m c t) (kblk m c t) (maskTile (F := Ideal) (grid0.coords t) (mblk m c t))) := by
    unfold outsAt0; dsimp only
    exact out4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t)
  rw [e, pay2_at]
  simp only [pay4_at, pay3_at, srow_at, vblk_at]
  rfl

/-! ## What a point writes back, the covers, the arrays after the run -/

theorem blk5_at (c : Dev nD) (t : Fin cfg0.N) (y : S1x1x512x2048.Idx) :
    (outsAt0 m c t).2 y = (((cfg0.win 5).blk t).view.read (Elt Ideal) (alignArr m c) : Vec Ideal S1x1x512x2048 .f32) y := by
  obtain ⟨u, v, r, k, rfl⟩ : ∃ (u v : Fin 1) (r : Fin 512) (k : Fin 2048), y = ix4 u v r k := ⟨y 0, y 1, y 2, y 3, eq_ix4 y⟩
  obtain rfl : u = 0 := Subsingleton.elim _ _
  obtain rfl : v = 0 := Subsingleton.elim _ _
  rw [out5_at, read_blk5]

theorem blk4_at (c : Dev nD) (t : Fin cfg0.N) (y : S1x1x512x64.Idx) :
    (outsAt0 m c t).1 y = (((cfg0.win 4).blk t).view.read (Elt Ideal) (ctxArr m c) : Vec Ideal S1x1x512x64 .f32) y := by
  obtain ⟨u, v, r, d, rfl⟩ : ∃ (u v : Fin 1) (r : Fin 512) (d : Fin 64), y = ix4 u v r d := ⟨y 0, y 1, y 2, y 3, eq_ix4 y⟩
  obtain rfl : u = 0 := Subsingleton.elim _ _
  obtain rfl : v = 0 := Subsingleton.elim _ _
  rw [out4_at, read_blk4]

/-- What point t writes back to the alignment array is block t of the alignment. -/
theorem flushed5_eq (c : Dev nD) (t : Fin cfg0.N) :
    (dats m 0 c).flushed 5 t = ((cfg0.win 5).blk t).view.read (Elt Ideal) (alignArr m c) := by
  show (cfg0.win 5).cut (grid0.coords t) ((dats m 0 c).after 5 t) = _
  rw [after0_5]
  funext y
  exact blk5_at m c t _

/-- What point t writes back to the context array is block t of the context. -/
theorem flushed4_eq (c : Dev nD) (t : Fin cfg0.N) :
    (dats m 0 c).flushed 4 t = ((cfg0.win 4).blk t).view.read (Elt Ideal) (ctxArr m c) := by
  show (cfg0.win 4).cut (grid0.coords t) ((dats m 0 c).after 4 t) = _
  rw [after0_4]
  funext y
  exact blk4_at m c t _

theorem mem_blk5 (t : Fin cfg0.N) (i : S2x16x2048x2048.Idx) :
    i ∈ ((cfg0.win 5).blk t).view.set ↔ ∀ a : Fin 4, win0_5.index t a * S1x1x512x2048.size a ≤ (i a).val ∧ (i a).val < win0_5.index t a * S1x1x512x2048.size a + S1x1x512x2048.size a := by
  show i ∈ ((View.whole main_v8_1).slice (win0_5.rect t)).set ↔ _
  rw [View.set_slice_whole, Rect.mem_set_unit]
  exact Iff.rfl

theorem mem_blk4 (t : Fin cfg0.N) (i : S2x16x2048x64.Idx) :
    i ∈ ((cfg0.win 4).blk t).view.set ↔ ∀ a : Fin 4, win0_4.index t a * S1x1x512x64.size a ≤ (i a).val ∧ (i a).val < win0_4.index t a * S1x1x512x64.size a + S1x1x512x64.size a := by
  show i ∈ ((View.whole main_v8_0).slice (win0_4.rect t)).set ↔ _
  rw [View.set_slice_whole, Rect.mem_set_unit]
  exact Iff.rfl

/-- Row q of head (b, h) of the alignment lies in the block of the point (b, h, q / 512). -/
theorem cover5 (i : S2x16x2048x2048.Idx) : ∃ t : Fin cfg0.N, (cfg0.win 5).flush t = true ∧ i ∈ ((cfg0.win 5).blk t).view.set := by
  have h0 : (i 0).val < 2 := (i 0).isLt
  have h1 : (i 1).val < 16 := (i 1).isLt
  have h2 : (i 2).val < 2048 := (i 2).isLt
  have h3 : (i 3).val < 2048 := (i 3).isLt
  obtain ⟨t, ht⟩ := idx_onto ⟨(i 0).val, h0⟩ ⟨(i 1).val, h1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Likewise for the context, whose window moves with the alignment's. -/
theorem cover4 (i : S2x16x2048x64.Idx) : ∃ t : Fin cfg0.N, (cfg0.win 4).flush t = true ∧ i ∈ ((cfg0.win 4).blk t).view.set := by
  have h0 : (i 0).val < 2 := (i 0).isLt
  have h1 : (i 1).val < 16 := (i 1).isLt
  have h2 : (i 2).val < 2048 := (i 2).isLt
  have h3 : (i 3).val < 64 := (i 3).isLt
  obtain ⟨t, ht⟩ := idx_onto ⟨(i 0).val, h0⟩ ⟨(i 1).val, h1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  obtain ⟨-, -, -, -, -, -, -, -, -, -, -, -, -, -, e0, e1, e2, e3, -⟩ := idx_facts t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- The alignment array after the run. -/
theorem final5 (c : Dev nD) : (dats m 0 c).arrAt 5 cfg0.N = alignArr m c :=
  (dats m 0 c).arrAt_eq_of_cover 5 (alignArr m c) (fun t _ => flushed5_eq m c t) cover5

/-- The context array after the run. -/
theorem final4 (c : Dev nD) : (dats m 0 c).arrAt 4 cfg0.N = ctxArr m c :=
  (dats m 0 c).arrAt_eq_of_cover 4 (ctxArr m c) (fun t _ => flushed4_eq m c t) cover4

/-! ## @main around the region -/

/-- The arrays the region finds are the inputs re-laid by @main's first lines: split into heads and transposed. -/
theorem q4_eq (c : Dev nD) : q4 m c = transpose S2x16x2048x64 [0, 2, 1, 3]
    (shapeCast S2x2048x16x64 (m ((c : Thread nD τ).loc main_arg0)) shapeCasts_S2x2048x1024_S2x2048x16x64)
    transposes_S2x2048x16x64_S2x16x2048x64_0_2_1_3 := by
  show StableHlo.after hostOps0 (fun b => m (c, b)) (Proc.devRef .tc main_v1) = _
  after_results
  rfl
theorem k4_eq (c : Dev nD) : k4 m c = transpose S2x16x2048x64 [0, 2, 1, 3]
    (shapeCast S2x2048x16x64 (m ((c : Thread nD τ).loc main_arg1)) shapeCasts_S2x2048x1024_S2x2048x16x64)
    transposes_S2x2048x16x64_S2x16x2048x64_0_2_1_3 := by
  show StableHlo.after hostOps0 (fun b => m (c, b)) (Proc.devRef .tc main_v3) = _
  after_results
  rfl
theorem v4_eq (c : Dev nD) : v4 m c = transpose S2x16x2048x64 [0, 2, 1, 3]
    (shapeCast S2x2048x16x64 (m ((c : Thread nD τ).loc main_arg2)) shapeCasts_S2x2048x1024_S2x2048x16x64)
    transposes_S2x2048x16x64_S2x16x2048x64_0_2_1_3 := by
  show StableHlo.after hostOps0 (fun b => m (c, b)) (Proc.devRef .tc main_v5) = _
  after_results
  rfl
/-- The mask the region finds: the [1, 1, 2048, 2048] input with its unit axes dropped (the format change is the identity). -/
theorem mk2_eq (c : Dev nD) : mk2 m c = truncf .bf16
    (shapeCast S2048x2048 (m ((c : Thread nD τ).loc main_arg3)) shapeCasts_S1x1x2048x2048_S2048x2048) bitsLt_bf16_f32 := by
  show StableHlo.after hostOps0 (fun b => m (c, b)) (Proc.devRef .tc main_v7) = _
  after_results
  rfl

/-- The first result: the context array re-laid as [2, 2048, 1024]. -/
abbrev ctxResult (c : Dev nD) : FVec Ideal S2x2048x1024 .f32 :=
  shapeCast S2x2048x1024 (ctxArr m c) shapeCasts_S2x16x2048x64_S2x2048x1024

/-- The reshape after the region re-lays the context array. -/
theorem tail_v9 (c : Dev nD) : Pipeline.afterTail₀ cfgs (dats m) 0 (V0 m) [hostOps1] c main_v9 = ctxResult m c := by
  unfold Pipeline.afterTail₀
  show StableHlo.after hostOps1 _ (Proc.devRef .tc main_v9) = _
  after_results
  exact congrArg (fun X => shapeCast S2x2048x1024 X shapeCasts_S2x16x2048x64_S2x2048x1024)
    ((Pipeline.withArrays_arr spec0 launch0.win.arr_inj c _ _ 4).trans (final4 m c))

/-- The run, read: both results at the attention of the arrays the region finds, the arguments unchanged. -/
theorem run : θ_run defs (onTc (τ := τ) (main (F := Ideal))) ⟨m, fun _ => 0, ρ⟩ fun r => ∀ c : Dev nD,
      r.2.mem ((c : Thread nD τ).loc main_v9) = ctxResult m c
      ∧ r.2.mem ((c : Thread nD τ).loc main_v8_1) = alignArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v9 (Pipeline.mem_restRefs_of main_v9 (by decide) (by decide))).trans (tail_v9 m c),
      ((h c).1 5).trans (final5 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.lean ====
/-
  Multi-head scaled dot-product attention with a multiplicative mask, 2 batches of 16 heads of 2048 rows and 64 channels:
  a tiled kernel against its array-level reference, equal as extended reals under finite inputs.

  Both programs split the [2, 2048, 1024] queries, keys and values into heads ([2, 16, 2048, 64], the same two
  layout operations in both) and re-lay the context with the same final reshape, so the comparison is between the
  [2, 16, 2048, 2048] alignment and the [2, 16, 2048, 64] context as functions of the head arrays and the mask
  (Proof/Softmax.lean: align, ctx).

  The kernel (Proof/KernelPieces.lean, KernelBody.lean, KernelValue.lean): per grid point (batch, head, block of 512
  query rows) it scores the query block against all 2048 keys, scales by the word 0.125, multiplies by the mask rows of
  the block, replaces exact zeros by -10^9, and normalises each row by exp (s - max s) times the reciprocal of the
  row's sum; the blocks the points write back tile both arrays.
  The reference (Proof/RefValue.lean): the same scores with a division by sqrt 64 (the product with 1/8 on every
  extended real), the same threshold, and the normalisation spelled as a quotient by the row's sum.
  The one place finiteness is used (Proof/Finite.lean reads it out of the precondition): a quotient by the row's sum
  is the product with its reciprocal only when the sum is not zero, and for real scores the sum is at least
  exp 0 = 1 (Proof/Softmax.lean, den_ne_zero).
  The idealization rewrote nothing, so that conjunct is trivial; the kernels' frames are the generated ones, and the
  reference's frame is its run with the results dropped.
-/
import proofs.«406578_j80496277061751_3_alg».proof.Defs
import proofs.«406578_j80496277061751_3_alg».proof.Proof.Gen.Kernel
import proofs.«406578_j80496277061751_3_alg».proof.Proof.Gen.Kernel.Skeleton
import proofs.«406578_j80496277061751_3_alg».proof.Proof.Gen.Kernel.Launch
import proofs.«406578_j80496277061751_3_alg».proof.Proof.Gen.Kernel.Points
import proofs.«406578_j80496277061751_3_alg».proof.Proof.Gen.Kernel.Frame
import proofs.«406578_j80496277061751_3_alg».proof.Proof.Gen.KernelIdeal
import proofs.«406578_j80496277061751_3_alg».proof.Proof.Gen.KernelIdeal.Skeleton
import proofs.«406578_j80496277061751_3_alg».proof.Proof.Gen.KernelIdeal.Launch
import proofs.«406578_j80496277061751_3_alg».proof.Proof.Gen.KernelIdeal.Points
import proofs.«406578_j80496277061751_3_alg».proof.Proof.Gen.KernelIdeal.Frame
import proofs.«406578_j80496277061751_3_alg».proof.Proof.Gen.ReferenceIdeal
import proofs.«406578_j80496277061751_3_alg».proof.Proof.Gen.ReferenceIdeal.Run
import proofs.«406578_j80496277061751_3_alg».proof.Proof.Gen.ReferenceIdeal.Read
import proofs.«406578_j80496277061751_3_alg».proof.Proof.Gen.Pre_finite_inputs
import proofs.«406578_j80496277061751_3_alg».proof.Proof.Softmax
import proofs.«406578_j80496277061751_3_alg».proof.Proof.LibUnitAxes
import proofs.«406578_j80496277061751_3_alg».proof.Proof.Finite
import proofs.«406578_j80496277061751_3_alg».proof.Proof.RefValue
import proofs.«406578_j80496277061751_3_alg».proof.Proof.KernelValue
import Idealize.ShloMosaic.Adequacy
import Idealize.ShloMosaic.Init

noncomputable section

namespace Cert.Proof

open Idealize.ShloMosaic Idealize.SL.Sem Idealize.ShloMosaic.ValueIdx Cert.Softmax

/-! ## The two programs see the same head arrays and the same mask -/

section Bridge

variable (m : (ℓ : Loc Cert.KernelIdeal.nD Cert.KernelIdeal.τ Cert.KernelIdeal.sig) → Buf (Elt Ideal) ℓ) (c : Dev Cert.KernelIdeal.nD)

/-- The heads' queries: what the kernel's region finds is the reference's first two layout operations of the same input. -/
theorem qf_eq : Cert.ReferenceIdeal.RefValue.qf (m ((c.tc : Thread Cert.KernelIdeal.nD Cert.KernelIdeal.τ).loc Cert.KernelIdeal.main_arg0))
    = Cert.KernelIdeal.KValue.qf m c := by
  funext b h s d
  show Cert.ReferenceIdeal.Read.val_main_v1 (F := Ideal) _ _ = Cert.KernelIdeal.KValue.q4 m c _
  rw [Cert.KernelIdeal.KValue.q4_eq]
  rfl
theorem kf_eq : Cert.ReferenceIdeal.RefValue.kf (m ((c.tc : Thread Cert.KernelIdeal.nD Cert.KernelIdeal.τ).loc Cert.KernelIdeal.main_arg1))
    = Cert.KernelIdeal.KValue.kf m c := by
  funext b h s d
  show Cert.ReferenceIdeal.Read.val_main_v3 (F := Ideal) _ _ = Cert.KernelIdeal.KValue.k4 m c _
  rw [Cert.KernelIdeal.KValue.k4_eq]
  rfl
theorem vf_eq : Cert.ReferenceIdeal.RefValue.vf (m ((c.tc : Thread Cert.KernelIdeal.nD Cert.KernelIdeal.τ).loc Cert.KernelIdeal.main_arg2))
    = Cert.KernelIdeal.KValue.vf m c := by
  funext b h s d
  show Cert.ReferenceIdeal.Read.val_main_v5 (F := Ideal) _ _ = Cert.KernelIdeal.KValue.v4 m c _
  rw [Cert.KernelIdeal.KValue.v4_eq]
  rfl
/-- The mask: the kernel's two-dimensional copy at (q, k) is the input at (0, 0, q, k), which is what the reference's
    broadcast over batches and heads reads. -/
theorem mf_eq : Cert.ReferenceIdeal.RefValue.mf (m ((c.tc : Thread Cert.KernelIdeal.nD Cert.KernelIdeal.τ).loc Cert.KernelIdeal.main_arg3))
    = Cert.KernelIdeal.KValue.mf m c := by
  funext q k
  show _ = Cert.KernelIdeal.KValue.mk2 m c (ix2 q k)
  rw [Cert.KernelIdeal.KValue.mk2_eq, truncf_apply, Cert.Lib.shapeCast_11ab_ab_apply]

end Bridge

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the context (re-laid) and the alignment of the same head arrays and mask. -/
theorem algebraic : Cert.algebraic_KernelIdeal_ReferenceIdeal := by
  intro m ρ m' ρ' hpre hagree
  refine ⟨fun c => Cert.KernelIdeal.KValue.ctxResult m c,
    fun c => Cert.KernelIdeal.KValue.alignArr m c, Cert.KernelIdeal.KValue.run m ρ, ?_⟩
  refine (θ_run Cert.ReferenceIdeal.defs _ _).mono (fun r h c => ?_) (Cert.ReferenceIdeal.Value.run (F := Ideal) m' ρ')
  obtain ⟨h27, h25, hargs⟩ := h c
  obtain ⟨e0, e1, e2, e3⟩ := hagree c
  obtain ⟨f0, f1, f2, f3⟩ := Cert.Finite.args_isFin _ _ _ _ (hpre c)
  refine ⟨h27.trans ?_, h25.trans ?_, hargs⟩
  · rw [Cert.ReferenceIdeal.Read.val_main_v27_eq, e0, e1, e2, e3]
    unfold Cert.ReferenceIdeal.Read.val_main_v27
    rw [Cert.ReferenceIdeal.RefValue.ctx_eq _ _ _ _ f0 f1 f3, qf_eq m c, kf_eq m c, vf_eq m c, mf_eq m c]
  · rw [Cert.ReferenceIdeal.Read.val_main_v25_eq, e0, e1, e3]
    rw [Cert.ReferenceIdeal.RefValue.align_eq _ _ _ f0 f1 f3, qf_eq m c, kf_eq m c, mf_eq m c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
